-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S800000 32) (main_arg2 : IVec S800000 32) (main_arg3 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩

abbrev nBuf : Space → Nat
  | .hbm => 19
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S128x128, .f32⟩
  | .hbm, ⟨18, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S128x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.LayerSpec.lean ====
/-
  One graph-convolution layer after the neighbourhood sum, as a function of three arrays: the aggregated
  features `agg` (one row of 128 per node), the node features `x` and the transposed weight `wt`:

      h[r, s] = max (Σ_k agg[r, k] · wt[k, s]) 0 + x[r, s]        (r < 50000, s < 128, k < 128).

  The zero is the float word 0x00000000, kept as a word: both programs spell it so and it is never evaluated.
  On the extended reals a change of float format is the identity, and a product of matrices accumulated into a
  zero tile is the plain sum over the contracted index; so a tile of 5000 rows, computed from the tile's rows of
  `agg` and `x` and the whole of `wt`, holds exactly the layer's entries at those rows (`tile_apply`).
-/
import proofs.«149879_j59545426592262_1_alg».proof.Proof.LibMatmulPlain
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.GcnLayer

/-- All nodes' rows, one tile of rows, and the square weight. -/
abbrev SNodes : Shape := ⟨2, ![50000, 128]⟩
abbrev STile : Shape := ⟨2, ![5000, 128]⟩
abbrev SW : Shape := ⟨2, ![128, 128]⟩

/-- Entry `(r, s)` of the layer over arrays of `R` rows: the rectified row-by-column product plus the residual. -/
def entry {R : Nat} (agg x : FVec Ideal ⟨2, ![R, 128]⟩ .f32) (wt : FVec Ideal SW .f32) (r : Fin R) (s : Fin 128) : EReal :=
  max (∑ k : Fin 128, agg (ix2 r k) * wt (ix2 k s)) (Ideal.ofBits .f32 0x00000000#32) + x (ix2 r s)

/-- The layer's result over all nodes. -/
def layer (agg x : FVec Ideal SNodes .f32) (wt : FVec Ideal SW .f32) : FVec Ideal SNodes .f32 :=
  fun i => entry agg x wt (i 0) (i 1)

theorem layer_apply (agg x : FVec Ideal SNodes .f32) (wt : FVec Ideal SW .f32) (i : SNodes.Idx) :
    layer agg x wt i = entry agg x wt (i 0) (i 1) := rfl

/-- One tile's arithmetic as the kernel body spells it — both operands narrowed to bf16 (the identity here), the
    matrix unit's product into a zero tile, the maximum with a splat zero, the residual added — is, entry by entry,
    the layer's entry over the tile's own rows. -/
theorem tile_apply (h1 : STile.ShapeCasts STile) (h2 : SW.ShapeCasts SW) (hb : FTy.bf16.bits < FTy.f32.bits)
    (a xb : FVec Ideal STile .f32) (w : FVec Ideal SW .f32) (p : Fin 5000) (q : Fin 128) :
    addf (maximumf (FloatOps.matmul (DotDims.plain 5000 128 128) none (truncf .bf16 (shapeCast STile a h1) hb)
        (truncf .bf16 (shapeCast SW w h2) hb) (constant STile .f32 0x00000000#32))
      (broadcast STile (Scalar.ofBits (F := Ideal) .f32 0x00000000#32))) xb (ix2 p q)
      = entry a xb w p q := by
  rw [addf_apply, maximumf_apply, Cert.MatmulPlain.matmul_zero_apply, broadcast_apply, shapeCast_self, shapeCast_self]
  rfl

/-- Two entries agree when the rows, the columns and the residuals they read agree: an entry depends on row `r` of
    the aggregated features, column `s` of the weight and the one residual at `(r, s)`, and on nothing else. -/
theorem entry_congr {R R' : Nat} (a xb : FVec Ideal ⟨2, ![R, 128]⟩ .f32) (agg x : FVec Ideal ⟨2, ![R', 128]⟩ .f32)
    (w wt : FVec Ideal SW .f32) (p : Fin R) (q : Fin 128) (r : Fin R') (s : Fin 128)
    (ha : ∀ k : Fin 128, a (ix2 p k) = agg (ix2 r k)) (hw : ∀ k : Fin 128, w (ix2 k q) = wt (ix2 k s))
    (hx : xb (ix2 p q) = x (ix2 r s)) : entry a xb w p q = entry agg x wt r s := by
  unfold entry
  rw [hx, Finset.sum_congr rfl fun k _ => by rw [ha k, hw k]]

end Cert.GcnLayer

end
-- ==== Proof.KernelValue.lean ====
/-
  The kernel's result array is the layer of the arrays the call is launched on.

  The call runs over ten grid points. Point `t` is given rows `5000·t … 5000·t + 4999` of the aggregated features
  and of the node features, and the whole transposed weight; its body stores one tile, whose entry `(p, q)` is the
  layer's entry computed from the tile's own rows (LayerSpec's `tile_apply`). Row `p` of the tile is row
  `5000·t + p` of the array, the weight is read whole, so that entry is the layer's entry `(5000·t + p, q)` over
  the whole arrays: what point `t` writes back is block `t` of the layer (`flushed_eq`). The ten blocks tile the
  50000 rows (the block holding row `r` is `r / 5000`), so the array ends as the layer (`final`).

  The two arrays the call does not get from the arguments directly are what @main's host operations made of
  them before the call: the aggregated features (a gather of rows of `x` at the wrapped source indices, added
  into a zero array at the destination indices: `aggOf`, never opened) and the transposed weight (`wtOf`).
-/
import proofs.«149879_j59545426592262_1_alg».proof.Proof.Gen.KernelIdeal.Value
import proofs.«149879_j59545426592262_1_alg».proof.Proof.LayerSpec
import Idealize.ShloMosaic.Lib.StableHlo.Run

set_option maxRecDepth 16384

noncomputable section

open scoped BigOperators

namespace Cert.KernelIdeal.TileValue

open Cert.KernelIdeal Cert.KernelIdeal.Gen Idealize.ShloMosaic Idealize.ShloMosaic.TcCoe Idealize.SL.Sem
open Idealize.ShloMosaic.ValueIdx Idealize.ShloMosaic.StableHlo Cert.GcnLayer
open Idealize.ShloMosaic.Pipeline (Dat)

variable (m : (ℓ : Loc nD τ sig) → Buf (Elt Ideal) ℓ) (ρ : Dev nD → PrngReg)

/-! ## One tile -/

theorem origin : (![0, 0] : Fin 2 → Nat) = fun _ => 0 := funext fun a => by fin_cases a <;> rfl

/-- The value the body stores, at an entry `j` of the tile, from the three blocks it loaded: the layer's entry
    `(j₀, j₁)` over the tile's rows. -/
theorem stored_apply (a xb : Vec Ideal S5000x128 .f32) (w : Vec Ideal S128x128 .f32) (j : S5000x128.Idx) :
    k0_pay1 (F := Ideal) a w xb j = entry a xb w (j 0) (j 1) := by
  obtain ⟨p, q, rfl⟩ : ∃ (p : Fin 5000) (q : Fin 128), j = ix2 p q := ⟨j 0, j 1, eq_ix2 j⟩
  exact tile_apply shapeCasts_S5000x128_S5000x128 shapeCasts_S128x128_S128x128 bitsLt_bf16_f32 a xb w p q

/-! ## Where the blocks lie -/

/-- The printed index maps over the ten points: the two row-tiled inputs move with the output, whose block row is the
    point's number; every block column is 0; the weight's block is always the first (and only) one. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every one of the ten block rows is some point's. -/
theorem idx_onto : ∀ b : Fin 10, ∃ t : Fin cfg0.N, win0_3.index t (0 : Fin 2) = b.val ∧ win0_3.index t (1 : Fin 2) = 0 :=
  (by decide +kernel : ∀ b : Fin 10, ∃ t : Fin grid0.N, win0_3.index t (0 : Fin 2) = b.val ∧ win0_3.index t (1 : Fin 2) = 0)

/-- A block of each window read at an index of the block is the array at the index the block's view sends it to.
    Stated for an arbitrary array `G`, one window at a time. -/
theorem read_blk0 (G : Vec Ideal S50000x128 .f32) (t : Fin cfg0.N) (y : S5000x128.Idx) :
    ((cfg0.win 0).blk t).view.read (Elt Ideal) G y = G (((cfg0.win 0).blk t).view.emb y) := rfl
theorem read_blk1 (G : Vec Ideal S50000x128 .f32) (t : Fin cfg0.N) (y : S5000x128.Idx) :
    ((cfg0.win 1).blk t).view.read (Elt Ideal) G y = G (((cfg0.win 1).blk t).view.emb y) := rfl
theorem read_blk2 (G : Vec Ideal S128x128 .f32) (t : Fin cfg0.N) (y : S128x128.Idx) :
    ((cfg0.win 2).blk t).view.read (Elt Ideal) G y = G (((cfg0.win 2).blk t).view.emb y) := rfl
theorem read_blk3 (G : Vec Ideal S50000x128 .f32) (t : Fin cfg0.N) (y : S5000x128.Idx) :
    ((cfg0.win 3).blk t).view.read (Elt Ideal) G y = G (((cfg0.win 3).blk t).view.emb y) := rfl

/-- Where each block's view sends an index of the block: the block's offset plus the index, axis by axis. -/
theorem emb0_val (t : Fin cfg0.N) (y : S5000x128.Idx) :
    ((((cfg0.win 0).blk t).view.emb y) 0).val = win0_0.index t (0 : Fin 2) * 5000 + 1 * (y 0).val
    ∧ ((((cfg0.win 0).blk t).view.emb y) 1).val = win0_0.index t (1 : Fin 2) * 128 + 1 * (y 1).val := ⟨rfl, rfl⟩
theorem emb1_val (t : Fin cfg0.N) (y : S5000x128.Idx) :
    ((((cfg0.win 1).blk t).view.emb y) 0).val = win0_1.index t (0 : Fin 2) * 5000 + 1 * (y 0).val
    ∧ ((((cfg0.win 1).blk t).view.emb y) 1).val = win0_1.index t (1 : Fin 2) * 128 + 1 * (y 1).val := ⟨rfl, rfl⟩
theorem emb2_val (t : Fin cfg0.N) (y : S128x128.Idx) :
    ((((cfg0.win 2).blk t).view.emb y) 0).val = win0_2.index t (0 : Fin 2) * 128 + 1 * (y 0).val
    ∧ ((((cfg0.win 2).blk t).view.emb y) 1).val = win0_2.index t (1 : Fin 2) * 128 + 1 * (y 1).val := ⟨rfl, rfl⟩
theorem emb3_val (t : Fin cfg0.N) (y : S5000x128.Idx) :
    ((((cfg0.win 3).blk t).view.emb y) 0).val = win0_3.index t (0 : Fin 2) * 5000 + 1 * (y 0).val
    ∧ ((((cfg0.win 3).blk t).view.emb y) 1).val = win0_3.index t (1 : Fin 2) * 128 + 1 * (y 1).val := ⟨rfl, rfl⟩

/-- WHAT POINT `t` WRITES BACK is block `t` of the layer of the arrays as the call finds them. -/
theorem flushed_eq (c : Dev nD) (t : Fin cfg0.N) :
    (dats m 0 c).flushed 3 t
      = ((cfg0.win 3).blk t).view.read (Elt Ideal) (layer (V m c main_v9) (V m c main_arg0) (V m c main_v10)) := by
  rw [Value.flushed3]
  unfold out0_3
  rw [View.canon_unit_zero origin]
  simp only [View.ld_unit_zero (S := S5000x128) origin, View.ld_unit_zero (S := S128x128) origin]
  obtain ⟨e0, e1, e2, e3, e4, e5, e6, e7⟩ := idx_facts t
  funext j
  -- the write-back reads the stored tile at `j` itself (the block is whole): the layer's entry over the tile's rows
  refine (stored_apply (iblk m c 0 t) (iblk m c 1 t) (iblk m c 2 t) ((cfg0.win 3).xinj (grid0.coords t) j)).trans ?_
  -- and block `t` of the layer at `j` is the layer's entry at the index the block's view sends `j` to
  refine Eq.trans ?_ ((read_blk3 (layer (V m c main_v9) (V m c main_arg0) (V m c main_v10)) t j).trans
    (layer_apply _ _ _ _)).symm
  obtain ⟨o0, o1⟩ := emb3_val t j
  refine entry_congr _ _ _ _ _ _ _ _ _ _ (fun k => ?_) (fun k => ?_) ?_
  · -- a row of the tile of aggregated features is the row of the array at the block's offset
    refine (read_blk0 (V m c main_v9) t _).trans (congrArg _ (funext fun a => Fin.ext ?_))
    obtain ⟨i0, i1⟩ := emb0_val t (ix2 (((cfg0.win 3).xinj (grid0.coords t) j) 0) k)
    match a with
    | ⟨0, _⟩ => exact i0.trans (by rw [e0]; exact o0.symm)
    | ⟨1, _⟩ => exact i1.trans (by rw [e1]; show 0 * 128 + 1 * k.val = k.val; omega)
  · -- the weight's one block is the whole weight, and the output's block column is the first
    refine (read_blk2 (V m c main_v10) t _).trans (congrArg _ (funext fun a => Fin.ext ?_))
    obtain ⟨i0, i1⟩ := emb2_val t (ix2 k (((cfg0.win 3).xinj (grid0.coords t) j) 1))
    match a with
    | ⟨0, _⟩ => exact i0.trans (by rw [e4]; show 0 * 128 + 1 * k.val = k.val; omega)
    | ⟨1, _⟩ => exact i1.trans (by rw [e5]; exact (by rw [e7] at o1; exact o1.symm))
  · -- the residual's tile lies where the output's does
    refine (read_blk1 (V m c main_arg0) t _).trans (congrArg _ (funext fun a => Fin.ext ?_))
    obtain ⟨i0, i1⟩ := emb1_val t (ix2 (((cfg0.win 3).xinj (grid0.coords t) j) 0) (((cfg0.win 3).xinj (grid0.coords t) j) 1))
    match a with
    | ⟨0, _⟩ => exact i0.trans (by rw [e2]; exact o0.symm)
    | ⟨1, _⟩ => exact i1.trans (by rw [e3]; exact (by rw [e7] at o1; exact o1.symm))

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

/-- The ten blocks tile the array: row `r` lies in block `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, q0, q1⟩ := idx_onto ⟨(i 0).val / 5000, by omega⟩
  have q0' : win0_3.index t (0 : Fin 2) = (i 0).val / 5000 := q0
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the run is the layer of the arrays as the call finds them. -/
theorem final (c : Dev nD) :
    (dats m 0 c).arrAt 3 cfg0.N = layer (V m c main_v9) (V m c main_arg0) (V m c main_v10) :=
  (dats m 0 c).arrAt_eq_of_cover 3 _ (fun t _ => flushed_eq m c t) cover

/-! ## The arrays the host operations make before the call -/

/-- The aggregated features as @main computes them from the node features and the edge lists: negative source
    indices wrapped by 50000, the rows of `x` gathered at them, and the gathered rows added into a zero array at
    the destination indices. Stated once and never opened: both programs compute it the same way. -/
def aggOf (x0 : Vec Ideal S50000x128 .f32) (x1 x2 : IVec S800000 32) : Vec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The transposed weight. -/
def wtOf (x3 : Vec Ideal S128x128 .f32) : Vec Ideal S128x128 .f32 :=
  transpose S128x128 [1, 0] x3 transposes_S128x128_S128x128_1_0

/-- The call finds the aggregated features of the arguments in its first operand's array … -/
theorem V_agg (c : Dev nD) :
    (V m c main_v9 : Vec Ideal S50000x128 .f32)
      = aggOf (m ((c : Thread nD τ).loc main_arg0)) (m ((c : Thread nD τ).loc main_arg1)) (m ((c : Thread nD τ).loc main_arg2)) := by
  dsimp only [V, hostOps0]
  after_results
  rfl

/-- … and the transposed weight in its third's. -/
theorem V_wt (c : Dev nD) :
    (V m c main_v10 : Vec Ideal S128x128 .f32) = wtOf (m ((c : Thread nD τ).loc main_arg3)) := by
  dsimp only [V, hostOps0]
  after_results
  rfl

/-! ## The run -/

/-- The kernel's run: the result array ends as the layer of the aggregated features, the node features and the
    transposed weight of the arguments; the arguments end unchanged. -/
theorem run : θ_run defs (onTc (τ := τ) (main (F := Ideal))) ⟨m, fun _ => 0, ρ⟩ fun r => ∀ c : Dev nD,
      r.2.mem ((c : Thread nD τ).loc main_v11)
        = layer (aggOf (m ((c : Thread nD τ).loc main_arg0)) (m ((c : Thread nD τ).loc main_arg1)) (m ((c : Thread nD τ).loc main_arg2)))
            (m ((c : Thread nD τ).loc main_arg0)) (wtOf (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by rw [(h c).1, final, V_agg, V_wt, V_main_arg0], (h c).2⟩)
    (Value.run_blocks m ρ)

end Cert.KernelIdeal.TileValue

end
-- ==== Proof.RefValue.lean ====
/-
  The reference's result is the layer of its own aggregated features: its last three operations — the host's
  product of the aggregated features with the transposed weight, the maximum with a splat zero, the residual —
  read at an entry `(r, s)` are `max (Σ_k agg[r, k] · wt[k, s]) 0 + x[r, s]`, where `agg` is whatever the
  gather and scatter-add before them produced and `wt` the transposed weight. Neither of those two is opened.
-/
import proofs.«149879_j59545426592262_1_alg».proof.Proof.Gen.ReferenceIdeal.Read
import proofs.«149879_j59545426592262_1_alg».proof.Proof.LayerSpec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.GcnLayer

/-- The left operand's index at output `i` and contraction coordinate `k` is `(i₀, k)`. -/
theorem lidx_eq (i : S50000x128.Idx) (k : Fin 128) : lidx_main_v11 i k = ix2 (i 0) k :=
  funext fun a => Fin.ext (by match a with | ⟨0, _⟩ => rfl | ⟨1, _⟩ => rfl)

/-- The right operand's index there is `(k, i₁)`. -/
theorem ridx_eq (i : S50000x128.Idx) (k : Fin 128) : ridx_main_v11 i k = ix2 k (i 1) :=
  funext fun a => Fin.ext (by match a with | ⟨0, _⟩ => rfl | ⟨1, _⟩ => rfl)

/-- The reference's result array is the layer of the aggregated features, the node features and the transposed
    weight. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) :
    val_main_v13 (F := Ideal) x0 x1 x2 x3 = layer (val_main_v9 (F := Ideal) x0 x1 x2) x0 (val_main_v10 (F := Ideal) x3) := by
  funext i
  rw [val_main_v13_apply, val_main_v12_apply, val_main_v11_apply, val_main_call0_v0_apply, val_main_call0_cst_apply]
  simp only [lidx_eq, ridx_eq]
  obtain ⟨r, s, rfl⟩ : ∃ (r : Fin 50000) (s : Fin 128), i = ix2 r s := ⟨i 0, i 1, eq_ix2 i⟩
  rfl

end Cert.ReferenceIdeal.RefValue

end
-- ==== Proof.lean ====
/-
  A graph-convolution layer: `relu (agg · Wᵀ) + x`, where `agg` sums the rows of `x` at each edge's source into the
  edge's destination. Both programs build `agg` and `Wᵀ` by the same host operations (a gather at the wrapped source
  indices, a scatter-add into a zero array, a transpose). The kernel then computes the layer tile by tile, 5000 rows
  at a time, on the matrix unit with both operands narrowed to bf16; the reference computes it with one host
  product over all 50000 rows. On the extended reals a change of float format is the identity and both products are
  the plain sum over the contracted index, so both result arrays are

      h[r, s] = max (Σ_k agg[r, k] · Wᵀ[k, s]) 0 + x[r, s]

  (LayerSpec's `layer`): the kernel's by KernelValue (one tile's entries, the tiles' positions, the cover), the
  reference's by RefValue (its last three operations read at an entry). `agg` and `Wᵀ` are never opened: the two
  programs' terms for them are the same term. No law of arithmetic beyond that is used, so the proof never opens the
  finiteness precondition. The ideal pass rewrote nothing, so `preserves` is trivial.
-/
import proofs.«149879_j59545426592262_1_alg».proof.Defs
import proofs.«149879_j59545426592262_1_alg».proof.Proof.Gen.Kernel
import proofs.«149879_j59545426592262_1_alg».proof.Proof.Gen.Kernel.Skeleton
import proofs.«149879_j59545426592262_1_alg».proof.Proof.Gen.Kernel.Launch
import proofs.«149879_j59545426592262_1_alg».proof.Proof.Gen.Kernel.Points
import proofs.«149879_j59545426592262_1_alg».proof.Proof.Gen.Kernel.Frame
import proofs.«149879_j59545426592262_1_alg».proof.Proof.Gen.KernelIdeal
import proofs.«149879_j59545426592262_1_alg».proof.Proof.Gen.KernelIdeal.Skeleton
import proofs.«149879_j59545426592262_1_alg».proof.Proof.Gen.KernelIdeal.Launch
import proofs.«149879_j59545426592262_1_alg».proof.Proof.Gen.KernelIdeal.Points
import proofs.«149879_j59545426592262_1_alg».proof.Proof.Gen.KernelIdeal.Frame
import proofs.«149879_j59545426592262_1_alg».proof.Proof.Gen.KernelIdeal.Value
import proofs.«149879_j59545426592262_1_alg».proof.Proof.Gen.ReferenceIdeal
import proofs.«149879_j59545426592262_1_alg».proof.Proof.Gen.ReferenceIdeal.Run
import proofs.«149879_j59545426592262_1_alg».proof.Proof.Gen.ReferenceIdeal.Read
import proofs.«149879_j59545426592262_1_alg».proof.Proof.Gen.Pre_finite_inputs
import proofs.«149879_j59545426592262_1_alg».proof.Proof.KernelValue
import proofs.«149879_j59545426592262_1_alg».proof.Proof.RefValue
import Idealize.ShloMosaic.Adequacy
import Idealize.ShloMosaic.Init

noncomputable section

namespace Cert.Proof

open Idealize.ShloMosaic Idealize.ShloMosaic.TcCoe Idealize.SL.Sem

/-- The reference builds the aggregated features by the kernel program's host operations, word for word. -/
theorem agg_same (x0 : Vec Ideal Cert.KernelIdeal.S50000x128 .f32) (x1 x2 : IVec Cert.KernelIdeal.S800000 32) :
    Cert.ReferenceIdeal.Read.val_main_v9 (F := Ideal) x0 x1 x2 = Cert.KernelIdeal.TileValue.aggOf x0 x1 x2 := rfl

/-- And the transposed weight likewise. -/
theorem wt_same (x3 : Vec Ideal Cert.KernelIdeal.S128x128 .f32) :
    Cert.ReferenceIdeal.Read.val_main_v10 (F := Ideal) x3 = Cert.KernelIdeal.TileValue.wtOf x3 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both result arrays are the layer of the same aggregated features, node features and transposed weight. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2, agg_same, wt_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
